-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1280000 : Shape := ⟨2, ![2, 1280000]⟩
abbrev S64x128 : Shape := ⟨2, ![64, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x64 .f32) (main_arg1 : IVec S2x1280000 32) (main_arg2 : FVec F S64x128 .f32) (main_arg3 : FVec F S128 .f32) (main_arg4 : FVec F S128x1 .f32) (main_arg5 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg4
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg5 main_v13 main_v16
-- ==== Kernel.lean ====
abbrev S100000x64 : Shape := ⟨2, ![100000, 64]⟩
abbrev S2x1280000 : Shape := ⟨2, ![2, 1280000]⟩
abbrev S64x128 : Shape := ⟨2, ![64, 128]⟩
abbrev S128 : Shape := ⟨1, ![128]⟩
abbrev S128x1 : Shape := ⟨2, ![128, 1]⟩
abbrev S1 : Shape := ⟨1, ![1]⟩
abbrev S1x1280000 : Shape := ⟨2, ![1, 1280000]⟩
abbrev S1280000 : Shape := ⟨1, ![1280000]⟩
abbrev S_ : Shape := ⟨0, ![]⟩
abbrev S1280000x1 : Shape := ⟨2, ![1280000, 1]⟩
abbrev S1280000x64 : Shape := ⟨2, ![1280000, 64]⟩
abbrev S100000x1 : Shape := ⟨2, ![100000, 1]⟩
abbrev S4000x64 : Shape := ⟨2, ![4000, 64]⟩
abbrev S4000x1 : Shape := ⟨2, ![4000, 1]⟩
abbrev S4000x128 : Shape := ⟨2, ![4000, 128]⟩
abbrev S1x128 : Shape := ⟨2, ![1, 128]⟩
abbrev S1x1 : Shape := ⟨2, ![1, 1]⟩
abbrev S100000 : Shape := ⟨1, ![100000]⟩

abbrev nBuf : Space → Nat
  | .hbm => 25
  | .vmem => 8
  | .smem => 0
  | _ => 0

abbrev bufTy : (tb : Table) → Fin (tcTables nBuf tb) → BufTy
  | .hbm, ⟨0, _⟩ => ⟨S100000x64, .f32⟩
  | .hbm, ⟨1, _⟩ => ⟨S2x1280000, .i32⟩
  | .hbm, ⟨2, _⟩ => ⟨S64x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S1x1280000, .i32⟩
  | .hbm, ⟨7, _⟩ => ⟨S1280000, .i32⟩
  | .hbm, ⟨8, _⟩ => ⟨S1x1280000, .i32⟩
  | .hbm, ⟨9, _⟩ => ⟨S1280000, .i32⟩
  | .hbm, ⟨10, _⟩ => ⟨S_, .i32⟩
  | .hbm, ⟨11, _⟩ => ⟨S1280000, .i32⟩
  | .hbm, ⟨12, _⟩ => ⟨S1280000, .i1⟩
  | .hbm, ⟨13, _⟩ => ⟨S_, .i32⟩
  | .hbm, ⟨14, _⟩ => ⟨S1280000, .i32⟩
  | .hbm, ⟨15, _⟩ => ⟨S1280000, .i32⟩
  | .hbm, ⟨16, _⟩ => ⟨S1280000, .i32⟩
  | .hbm, ⟨17, _⟩ => ⟨S1280000x1, .i32⟩
  | .hbm, ⟨18, _⟩ => ⟨S1280000x64, .f32⟩
  | .hbm, ⟨19, _⟩ => ⟨S_, .f32⟩
  | .hbm, ⟨20, _⟩ => ⟨S100000x64, .f32⟩
  | .hbm, ⟨21, _⟩ => ⟨S1280000x1, .i32⟩
  | .hbm, ⟨22, _⟩ => ⟨S100000x64, .f32⟩
  | .hbm, ⟨23, _⟩ => ⟨S100000x1, .f32⟩
  | .hbm, ⟨24, _⟩ => ⟨S100000, .f32⟩
  | .local _ .vmem, ⟨0, _⟩ => ⟨S4000x64, .f32⟩
  | .local _ .vmem, ⟨1, _⟩ => ⟨S4000x64, .f32⟩
  | .local _ .vmem, ⟨2, _⟩ => ⟨S64x128, .f32⟩
  | .local _ .vmem, ⟨3, _⟩ => ⟨S128, .f32⟩
  | .local _ .vmem, ⟨4, _⟩ => ⟨S128x1, .f32⟩
  | .local _ .vmem, ⟨5, _⟩ => ⟨S1, .f32⟩
  | .local _ .vmem, ⟨6, _⟩ => ⟨S4000x1, .f32⟩
  | .local _ .vmem, ⟨7, _⟩ => ⟨S4000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  bcast_S_S1280000 : S_.BroadcastsInDim S1280000 (![] : Fin 0 → Fin S1280000.rank)
  bcast_S1280000_S1280000x1_0 : S1280000.BroadcastsInDim S1280000x1 (![0] : Fin 1 → Fin S1280000x1.rank)
  bcast_S_S100000x64 : S_.BroadcastsInDim S100000x64 (![] : Fin 0 → Fin S100000x64.rank)
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  shapeCasts_S100000x1_S100000 : S100000x1.ShapeCasts S100000
  gather_S100000x64_S1280000x1_S1280000x64_1_0_n_n_0_1_164_wf : GatherDims.WF S100000x64 S1280000x1 S1280000x64 [1] [0] [] [0] [] 1 ![1, 64]
  scatter_S100000x64_S1280000x1_S1280000x64_1_0_0_1_wf : ScatterDims.WF S100000x64 S1280000x1 S1280000x64 [1] [0] [0] 1
  dot_S4000x64_S64x128_S4000x128_1_0_0_1_n_n_wf : DotDims.WF S4000x64 S64x128 S4000x128 [1] [0] [0] [1] [] []
  dot_S4000x128_S128x1_S4000x1_1_0_0_1_n_n_wf : DotDims.WF S4000x128 S128x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S128x1.size a
  hwx0_3 : ∀ i : grid0.Coords, EltTy.bits .f32 = 32 ∨ (Rect.block (s := S128x1) S128x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x1.size a ≤ S100000x1.size a
  hwx0_5 : ∀ i : grid0.Coords, EltTy.bits .f32 = 32 ∨ (Rect.block (s := S100000x1) S4000x1.size (cc0_transform_5 i) (hinb0_5 i)).WholeWords (EltTy.packing .f32)

variable [Facts₀]

def gather_S100000x64_S1280000x1_S1280000x64_1_0_n_n_0_1_164 : GatherDims S100000x64 S1280000x1 S1280000x64 where
  offsetDims := [1]
  collapsedSliceDims := [0]
  operandBatchingDims := []
  startIndicesBatchingDims := []
  startIndexMap := [0]
  indexVectorDim := 1
  sliceSizes := ![1, 64]
  wf := gather_S100000x64_S1280000x1_S1280000x64_1_0_n_n_0_1_164_wf
def scatter_S100000x64_S1280000x1_S1280000x64_1_0_0_1 : ScatterDims S100000x64 S1280000x1 S1280000x64 where
  updateWindowDims := [1]
  insertedWindowDims := [0]
  scatterDimsToOperandDims := [0]
  indexVectorDim := 1
  wf := scatter_S100000x64_S1280000x1_S1280000x64_1_0_0_1_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf

abbrev win0_0 : Pipeline.Window sig grid0 :=
  Pipeline.Window.ofSpec (Memref.whole main_v13) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S4000x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1280000 : Shape := ⟨2, ![2, 1280000]⟩
abbrev S64x128 : Shape := ⟨2, ![64, 128]⟩
abbrev S128 : Shape := ⟨1, ![128]⟩
abbrev S128x1 : Shape := ⟨2, ![128, 1]⟩
abbrev S1 : Shape := ⟨1, ![1]⟩
abbrev S1x1280000 : Shape := ⟨2, ![1, 1280000]⟩
abbrev S1280000 : Shape := ⟨1, ![1280000]⟩
abbrev S_ : Shape := ⟨0, ![]⟩
abbrev S1280000x1 : Shape := ⟨2, ![1280000, 1]⟩
abbrev S1280000x64 : Shape := ⟨2, ![1280000, 64]⟩
abbrev S100000x128 : Shape := ⟨2, ![100000, 128]⟩
abbrev S1x128 : Shape := ⟨2, ![1, 128]⟩
abbrev S100000x1 : Shape := ⟨2, ![100000, 1]⟩
abbrev S1x1 : Shape := ⟨2, ![1, 1]⟩
abbrev S100000 : Shape := ⟨1, ![100000]⟩

abbrev nBuf : Space → Nat
  | .hbm => 35
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1280000, .i32⟩
  | .hbm, ⟨2, _⟩ => ⟨S64x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S1x1280000, .i32⟩
  | .hbm, ⟨7, _⟩ => ⟨S1280000, .i32⟩
  | .hbm, ⟨8, _⟩ => ⟨S1x1280000, .i32⟩
  | .hbm, ⟨9, _⟩ => ⟨S1280000, .i32⟩
  | .hbm, ⟨10, _⟩ => ⟨S_, .i32⟩
  | .hbm, ⟨11, _⟩ => ⟨S1280000, .i32⟩
  | .hbm, ⟨12, _⟩ => ⟨S1280000, .i1⟩
  | .hbm, ⟨13, _⟩ => ⟨S_, .i32⟩
  | .hbm, ⟨14, _⟩ => ⟨S1280000, .i32⟩
  | .hbm, ⟨15, _⟩ => ⟨S1280000, .i32⟩
  | .hbm, ⟨16, _⟩ => ⟨S1280000, .i32⟩
  | .hbm, ⟨17, _⟩ => ⟨S1280000x1, .i32⟩
  | .hbm, ⟨18, _⟩ => ⟨S1280000x64, .f32⟩
  | .hbm, ⟨19, _⟩ => ⟨S_, .f32⟩
  | .hbm, ⟨20, _⟩ => ⟨S100000x64, .f32⟩
  | .hbm, ⟨21, _⟩ => ⟨S1280000x1, .i32⟩
  | .hbm, ⟨22, _⟩ => ⟨S100000x64, .f32⟩
  | .hbm, ⟨23, _⟩ => ⟨S100000x128, .f32⟩
  | .hbm, ⟨24, _⟩ => ⟨S1x128, .f32⟩
  | .hbm, ⟨25, _⟩ => ⟨S100000x128, .f32⟩
  | .hbm, ⟨26, _⟩ => ⟨S100000x128, .f32⟩
  | .hbm, ⟨27, _⟩ => ⟨S_, .f32⟩
  | .hbm, ⟨28, _⟩ => ⟨S100000x128, .f32⟩
  | .hbm, ⟨29, _⟩ => ⟨S100000x128, .f32⟩
  | .hbm, ⟨30, _⟩ => ⟨S100000x1, .f32⟩
  | .hbm, ⟨31, _⟩ => ⟨S1x1, .f32⟩
  | .hbm, ⟨32, _⟩ => ⟨S100000x1, .f32⟩
  | .hbm, ⟨33, _⟩ => ⟨S100000x1, .f32⟩
  | .hbm, ⟨34, _⟩ => ⟨S100000, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_cst : Ref sig .tc := ⟨.hbm, 27, rfl⟩
abbrev main_call0_v0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  bcast_S_S1280000 : S_.BroadcastsInDim S1280000 (![] : Fin 0 → Fin S1280000.rank)
  bcast_S1280000_S1280000x1_0 : S1280000.BroadcastsInDim S1280000x1 (![0] : Fin 1 → Fin S1280000x1.rank)
  bcast_S_S100000x64 : S_.BroadcastsInDim S100000x64 (![] : Fin 0 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S100000x64_S1280000x1_S1280000x64_1_0_n_n_0_1_164_wf : GatherDims.WF S100000x64 S1280000x1 S1280000x64 [1] [0] [] [0] [] 1 ![1, 64]
  scatter_S100000x64_S1280000x1_S1280000x64_1_0_0_1_wf : ScatterDims.WF S100000x64 S1280000x1 S1280000x64 [1] [0] [0] 1
  dot_S100000x64_S64x128_S100000x128_1_0_0_1_n_n_wf : DotDims.WF S100000x64 S64x128 S100000x128 [1] [0] [0] [1] [] []
  dot_S100000x128_S128x1_S100000x1_1_0_0_1_n_n_wf : DotDims.WF S100000x128 S128x1 S100000x1 [1] [0] [0] [1] [] []

variable [Facts₀]

def gather_S100000x64_S1280000x1_S1280000x64_1_0_n_n_0_1_164 : GatherDims S100000x64 S1280000x1 S1280000x64 where
  offsetDims := [1]
  collapsedSliceDims := [0]
  operandBatchingDims := []
  startIndicesBatchingDims := []
  startIndexMap := [0]
  indexVectorDim := 1
  sliceSizes := ![1, 64]
  wf := gather_S100000x64_S1280000x1_S1280000x64_1_0_n_n_0_1_164_wf
def scatter_S100000x64_S1280000x1_S1280000x64_1_0_0_1 : ScatterDims S100000x64 S1280000x1 S1280000x64 where
  updateWindowDims := [1]
  insertedWindowDims := [0]
  scatterDimsToOperandDims := [0]
  indexVectorDim := 1
  wf := scatter_S100000x64_S1280000x1_S1280000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.LibPlainMatmul.lean ====
/-
  A plain matrix product read at an index, at the ideal values.

  For dimension numbers `d` over shapes [M, K] × [K, N] → [M, N] that contract the left operand's axis 1 with the right
  operand's axis 0 and keep the left rows and the right columns — stated here as the four facts about the record's index
  maps that say so, so that the lemma serves any record, whatever its generated name — the product accumulated into the
  zero splat, read at `(p, o)`, is `∑ k, A (p, k) · B (k, o)`: the library's sum over the record's contraction index set,
  re-indexed by that set's one coordinate.
-/
import Idealize.ShloMosaic.PureOps.Ideal.Laws
import Idealize.ShloMosaic.Lib.ValueIdx

noncomputable section

open scoped BigOperators
open Idealize.ShloMosaic Idealize.ShloMosaic.ValueIdx

namespace Cert.LibPlainMatmul

/-- `FloatOps.matmul d prec A B 0 (p, o) = ∑ k : Fin K, A (p, k) * B (k, o)` for a record `d` with one contracted axis of
    extent `K` whose left index at `(i, q)` is `(i 0, q)` and whose right index is `(q, i 1)` (`hl0`, `hl1`, `hr0`, `hr1`:
    for a generated record the first and last are a `dif_neg` / `dif_pos` on its literal axis lists, the middle two are
    `DotDims.lhsIdx_val_of_single` / `rhsIdx_val_of_single`). -/
theorem matmul_zero_apply {M K N : ℕ} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (A : FVec Ideal ⟨2, ![M, K]⟩ φ₁) (B : FVec Ideal ⟨2, ![K, N]⟩ φ₂) (p : Fin M) (o : Fin N) :
    FloatOps.matmul d prec A B (constant (F := Ideal) ⟨2, ![M, N]⟩ .f32 0x00000000#32) (ix2 p o)
      = ∑ k : Fin K, A (ix2 p k) * B (ix2 k o) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p o) ((contrEquiv1 d K hr hs).symm k) = ix2 p k := funext fun a => Fin.ext (by
    match a with
    | ⟨0, _⟩ => exact hl0 _ _
    | ⟨1, _⟩ => exact (hl1 _ _).trans hk)
  have er : d.rhsIdx (ix2 p o) ((contrEquiv1 d K hr hs).symm k) = ix2 k o := funext fun a => Fin.ext (by
    match a with
    | ⟨0, _⟩ => exact (hr0 _ _).trans hk
    | ⟨1, _⟩ => exact hr1 _ _)
  rw [el, er]

end Cert.LibPlainMatmul

end
-- ==== Proof.Mlp.lean ====
/-
  The score both programs compute for one node from its aggregated features.

  A node's 64 aggregated features `a` pass through a hidden layer of 128 rectified units,
  `h j = max (∑ k, a k · W1 (k, j) + b1 j) 0`, and one linear output, `∑ j, h j · W2 (j, 0) + b2 0`.
  Every operation is the exact one on the extended reals. The score of node `r` depends on row `r` of the
  aggregated features only, so it is the same whether the nodes are processed all at once or 4000 at a time.
-/
import Idealize.ShloMosaic.PureOps.Ideal
import Idealize.ShloMosaic.Lib.ValueIdx
import Idealize.ShloMosaic.Lib.Pipeline.Value

noncomputable section

open scoped BigOperators
open Idealize.ShloMosaic Idealize.ShloMosaic.ValueIdx

namespace Cert.Mlp

/-- Hidden unit `j` of a node with aggregated features `a`: the rectified affine form `max (a · W1 (·, j) + b1 j) 0`. -/
def hidden (W1 : (⟨2, ![64, 128]⟩ : Shape).Idx → EReal) (b1 : (⟨1, ![128]⟩ : Shape).Idx → EReal)
    (a : Fin 64 → EReal) (j : Fin 128) : EReal :=
  max ((∑ k : Fin 64, a k * W1 (ix2 k j)) + b1 (ix1 j)) 0

/-- The node's score: the hidden units against the one output column, plus the output bias. -/
def score (W1 : (⟨2, ![64, 128]⟩ : Shape).Idx → EReal) (b1 : (⟨1, ![128]⟩ : Shape).Idx → EReal)
    (W2 : (⟨2, ![128, 1]⟩ : Shape).Idx → EReal) (b2 : (⟨1, ![1]⟩ : Shape).Idx → EReal) (a : Fin 64 → EReal) : EReal :=
  (∑ j : Fin 128, hidden W1 b1 a j * W2 (ix2 j (0 : Fin 1))) + b2 (ix1 (0 : Fin 1))

/-- Node `r`'s row of the array of all nodes' aggregated features. -/
def row (A : (⟨2, ![100000, 64]⟩ : Shape).Idx → EReal) (r : Fin 100000) : Fin 64 → EReal := fun k => A (ix2 r k)

/-- All nodes' scores as a column, the shape the blocked computation writes. -/
def scoresCol (A : (⟨2, ![100000, 64]⟩ : Shape).Idx → EReal) (W1 : (⟨2, ![64, 128]⟩ : Shape).Idx → EReal)
    (b1 : (⟨1, ![128]⟩ : Shape).Idx → EReal) (W2 : (⟨2, ![128, 1]⟩ : Shape).Idx → EReal) (b2 : (⟨1, ![1]⟩ : Shape).Idx → EReal) :
    (⟨2, ![100000, 1]⟩ : Shape).Idx → EReal :=
  fun i => score W1 b1 W2 b2 (row A ⟨(i 0).val, (i 0).isLt⟩)

/-- All nodes' scores as a vector, the shape both programs return. -/
def scores (A : (⟨2, ![100000, 64]⟩ : Shape).Idx → EReal) (W1 : (⟨2, ![64, 128]⟩ : Shape).Idx → EReal)
    (b1 : (⟨1, ![128]⟩ : Shape).Idx → EReal) (W2 : (⟨2, ![128, 1]⟩ : Shape).Idx → EReal) (b2 : (⟨1, ![1]⟩ : Shape).Idx → EReal) :
    (⟨1, ![100000]⟩ : Shape).Idx → EReal :=
  fun i => score W1 b1 W2 b2 (row A ⟨(i 0).val, (i 0).isLt⟩)

/-- The score column at an index whose row coordinate is `r`. -/
theorem scoresCol_apply (A : (⟨2, ![100000, 64]⟩ : Shape).Idx → EReal) (W1 : (⟨2, ![64, 128]⟩ : Shape).Idx → EReal)
    (b1 : (⟨1, ![128]⟩ : Shape).Idx → EReal) (W2 : (⟨2, ![128, 1]⟩ : Shape).Idx → EReal) (b2 : (⟨1, ![1]⟩ : Shape).Idx → EReal)
    (i : (⟨2, ![100000, 1]⟩ : Shape).Idx) (r : Fin 100000) (hr : (i 0).val = r.val) :
    scoresCol A W1 b1 W2 b2 i = score W1 b1 W2 b2 (row A r) := by
  unfold scoresCol
  exact congrArg (fun q => score W1 b1 W2 b2 (row A q)) (Fin.ext hr)

/-- The score column with its unit axis dropped is the score vector. -/
theorem shapeCast_scoresCol (A : (⟨2, ![100000, 64]⟩ : Shape).Idx → EReal) (W1 : (⟨2, ![64, 128]⟩ : Shape).Idx → EReal)
    (b1 : (⟨1, ![128]⟩ : Shape).Idx → EReal) (W2 : (⟨2, ![128, 1]⟩ : Shape).Idx → EReal) (b2 : (⟨1, ![1]⟩ : Shape).Idx → EReal)
    (h : (⟨2, ![100000, 1]⟩ : Shape).ShapeCasts ⟨1, ![100000]⟩) :
    shapeCast ⟨1, ![100000]⟩ (scoresCol A W1 b1 W2 b2) h = scores A W1 b1 W2 b2 := by
  funext i
  have hi : (i 0).val < 100000 := (i 0).isLt
  refine (shapeCast_apply (scoresCol A W1 b1 W2 b2) h i (ix2 (⟨(i 0).val, hi⟩ : Fin 100000) (0 : Fin 1)) ?_).trans ?_
  · rw [Shape.rowMajor_val_two, Shape.rowMajor_val_one]
    show (i 0).val * 1 + 0 = (i 0).val
    omega
  · exact scoresCol_apply A W1 b1 W2 b2 _ ⟨(i 0).val, hi⟩ rfl

end Cert.Mlp

end
-- ==== Proof.KernelBlock.lean ====
/-
  One block of the kernel, read one node at a time: the body's stored value at row `p` of the block is the score of
  the node whose aggregated features are row `p` of the loaded feature block.

  The body narrows its operands to bf16 (the identity on exact values), multiplies the 4000 × 64 feature block by the
  64 × 128 first weight into a zero accumulator, adds the first bias along the rows, rectifies, multiplies by the 128 × 1
  second weight into a zero accumulator and adds the second bias. Read at a row, each product is a sum over the
  contracted axis, and the two biases reach the row through a unit axis added in front and a broadcast along the rows.
-/
import proofs.«123524_j3229815407293_1_alg».proof.Proof.Gen.KernelIdeal.Skeleton
import proofs.«123524_j3229815407293_1_alg».proof.Proof.LibPlainMatmul
import proofs.«123524_j3229815407293_1_alg».proof.Proof.Mlp
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.KernelIdeal.Block

open Cert.KernelIdeal Cert.KernelIdeal.Gen

/-! ## The two products' index maps: rows of the left operand against columns of the right -/

theorem lhs1_0 (i : S4000x128.Idx) (q : dot_S4000x64_S64x128_S4000x128_1_0_0_1_n_n.contr.Idx) :
    (dot_S4000x64_S64x128_S4000x128_1_0_0_1_n_n.lhsIdx i q 0).val = (i 0).val := by
  unfold DotDims.lhsIdx
  rw [dif_neg (show ¬(0 : Fin S4000x64.rank) ∈ dot_S4000x64_S64x128_S4000x128_1_0_0_1_n_n.lhsBatch by decide), dif_pos (show (0 : Fin S4000x64.rank) ∈ dot_S4000x64_S64x128_S4000x128_1_0_0_1_n_n.lhsNonContracting by decide)]
  rfl
theorem lhs1_1 (i : S4000x128.Idx) (q : dot_S4000x64_S64x128_S4000x128_1_0_0_1_n_n.contr.Idx) :
    (dot_S4000x64_S64x128_S4000x128_1_0_0_1_n_n.lhsIdx i q 1).val = (q ⟨0, by decide⟩).val :=
  dot_S4000x64_S64x128_S4000x128_1_0_0_1_n_n.lhsIdx_val_of_single rfl i q
theorem rhs1_0 (i : S4000x128.Idx) (q : dot_S4000x64_S64x128_S4000x128_1_0_0_1_n_n.contr.Idx) :
    (dot_S4000x64_S64x128_S4000x128_1_0_0_1_n_n.rhsIdx i q 0).val = (q ⟨0, by decide⟩).val :=
  dot_S4000x64_S64x128_S4000x128_1_0_0_1_n_n.rhsIdx_val_of_single rfl i q
theorem rhs1_1 (i : S4000x128.Idx) (q : dot_S4000x64_S64x128_S4000x128_1_0_0_1_n_n.contr.Idx) :
    (dot_S4000x64_S64x128_S4000x128_1_0_0_1_n_n.rhsIdx i q 1).val = (i 1).val := by
  unfold DotDims.rhsIdx
  rw [dif_neg (show ¬(1 : Fin S64x128.rank) ∈ dot_S4000x64_S64x128_S4000x128_1_0_0_1_n_n.rhsBatch by decide), dif_pos (show (1 : Fin S64x128.rank) ∈ dot_S4000x64_S64x128_S4000x128_1_0_0_1_n_n.rhsNonContracting by decide)]
  rfl

theorem lhs2_0 (i : S4000x1.Idx) (q : dot_S4000x128_S128x1_S4000x1_1_0_0_1_n_n.contr.Idx) :
    (dot_S4000x128_S128x1_S4000x1_1_0_0_1_n_n.lhsIdx i q 0).val = (i 0).val := by
  unfold DotDims.lhsIdx
  rw [dif_neg (show ¬(0 : Fin S4000x128.rank) ∈ dot_S4000x128_S128x1_S4000x1_1_0_0_1_n_n.lhsBatch by decide), dif_pos (show (0 : Fin S4000x128.rank) ∈ dot_S4000x128_S128x1_S4000x1_1_0_0_1_n_n.lhsNonContracting by decide)]
  rfl
theorem lhs2_1 (i : S4000x1.Idx) (q : dot_S4000x128_S128x1_S4000x1_1_0_0_1_n_n.contr.Idx) :
    (dot_S4000x128_S128x1_S4000x1_1_0_0_1_n_n.lhsIdx i q 1).val = (q ⟨0, by decide⟩).val :=
  dot_S4000x128_S128x1_S4000x1_1_0_0_1_n_n.lhsIdx_val_of_single rfl i q
theorem rhs2_0 (i : S4000x1.Idx) (q : dot_S4000x128_S128x1_S4000x1_1_0_0_1_n_n.contr.Idx) :
    (dot_S4000x128_S128x1_S4000x1_1_0_0_1_n_n.rhsIdx i q 0).val = (q ⟨0, by decide⟩).val :=
  dot_S4000x128_S128x1_S4000x1_1_0_0_1_n_n.rhsIdx_val_of_single rfl i q
theorem rhs2_1 (i : S4000x1.Idx) (q : dot_S4000x128_S128x1_S4000x1_1_0_0_1_n_n.contr.Idx) :
    (dot_S4000x128_S128x1_S4000x1_1_0_0_1_n_n.rhsIdx i q 1).val = (i 1).val := by
  unfold DotDims.rhsIdx
  rw [dif_neg (show ¬(1 : Fin S128x1.rank) ∈ dot_S4000x128_S128x1_S4000x1_1_0_0_1_n_n.rhsBatch by decide), dif_pos (show (1 : Fin S128x1.rank) ∈ dot_S4000x128_S128x1_S4000x1_1_0_0_1_n_n.rhsNonContracting by decide)]
  rfl

/-- The first product at row `p`, column `j`: the row of features against column `j` of the first weight. -/
theorem prod1_apply (a : FVec Ideal S4000x64 .bf16) (w : FVec Ideal S64x128 .bf16) (p : Fin 4000) (j : Fin 128) :
    FloatOps.matmul dot_S4000x64_S64x128_S4000x128_1_0_0_1_n_n none a w (constant (F := Ideal) S4000x128 .f32 0x00000000#32) (ix2 p j)
      = ∑ k : Fin 64, a (ix2 p k) * w (ix2 k j) :=
  Cert.LibPlainMatmul.matmul_zero_apply dot_S4000x64_S64x128_S4000x128_1_0_0_1_n_n none rfl rfl lhs1_0 lhs1_1 rhs1_0 rhs1_1 a w p j

/-- The second product at row `p`: the row of hidden units against the one column of the second weight. -/
theorem prod2_apply (h : FVec Ideal S4000x128 .bf16) (w : FVec Ideal S128x1 .bf16) (p : Fin 4000) (o : Fin 1) :
    FloatOps.matmul dot_S4000x128_S128x1_S4000x1_1_0_0_1_n_n none h w (constant (F := Ideal) S4000x1 .f32 0x00000000#32) (ix2 p o)
      = ∑ j : Fin 128, h (ix2 p j) * w (ix2 j o) :=
  Cert.LibPlainMatmul.matmul_zero_apply dot_S4000x128_S128x1_S4000x1_1_0_0_1_n_n none rfl rfl lhs2_0 lhs2_1 rhs2_0 rhs2_1 h w p o

/-- The first bias, given a unit axis in front and broadcast along the 4000 rows, at row `p`, column `j`. -/
theorem bias1_apply (b : FVec Ideal S128 .f32) (p : Fin 4000) (j : Fin 128) :
    broadcastTo S4000x128 (shapeCast S1x128 b Facts₀.shapeCasts_S128_S1x128) Facts₀.broadcasts_S1x128_S4000x128 (ix2 p j) = b (ix1 j) := by
  rw [broadcastTo_1b_ab_apply, shapeCast_a_1a_apply]

/-- The second bias, likewise, at row `p` of the one column. -/
theorem bias2_apply (b : FVec Ideal S1 .f32) (p : Fin 4000) :
    broadcastTo S4000x1 (shapeCast S1x1 b Facts₀.shapeCasts_S1_S1x1) Facts₀.broadcasts_S1x1_S4000x1 (ix2 p (0 : Fin 1)) = b (ix1 (0 : Fin 1)) := by
  rw [broadcastTo_1b_ab_apply, shapeCast_a_1a_apply]

/-- THE BLOCK: the value the body stores, at row `p`, is the score of the node whose features are row `p` of the
    loaded block. -/
theorem stored_apply (v0 : FVec Ideal S4000x64 .f32) (v3 : FVec Ideal S64x128 .f32) (v6 : FVec Ideal S128 .f32)
    (v12 : FVec Ideal S128x1 .f32) (v16 : FVec Ideal S1 .f32) (p : Fin 4000) (o : Fin 1) :
    k0_pay1 (F := Ideal) v0 v3 v6 v12 v16 (ix2 p o) = Cert.Mlp.score v3 v6 v12 v16 (fun k => v0 (ix2 p k)) := by
  obtain rfl : o = (0 : Fin 1) := Subsingleton.elim _ _
  unfold k0_pay1
  show FloatOps.matmul dot_S4000x128_S128x1_S4000x1_1_0_0_1_n_n none _ _ (constant (F := Ideal) S4000x1 .f32 0x00000000#32) (ix2 p (0 : Fin 1))
      + broadcastTo S4000x1 (shapeCast S1x1 v16 Facts₀.shapeCasts_S1_S1x1) Facts₀.broadcasts_S1x1_S4000x1 (ix2 p (0 : Fin 1)) = _
  rw [prod2_apply, bias2_apply]
  unfold Cert.Mlp.score
  refine congrArg (· + v16 (ix1 (0 : Fin 1))) (Finset.sum_congr rfl fun j _ => ?_)
  refine congrArg (· * v12 (ix2 j (0 : Fin 1))) ?_
  show max (FloatOps.matmul dot_S4000x64_S64x128_S4000x128_1_0_0_1_n_n none _ _ (constant (F := Ideal) S4000x128 .f32 0x00000000#32) (ix2 p j)
      + broadcastTo S4000x128 (shapeCast S1x128 v6 Facts₀.shapeCasts_S128_S1x128) Facts₀.broadcasts_S1x128_S4000x128 (ix2 p j))
      (Ideal.ofBits .f32 0x00000000#32) = _
  rw [prod1_apply, bias1_apply, Ideal.ofBits_zero_f32]
  unfold Cert.Mlp.hidden
  simp only [truncf_apply, shapeCast_self]

/-- The same at any index of the stored block whose row coordinate is `p`. -/
theorem stored_at (v0 : FVec Ideal S4000x64 .f32) (v3 : FVec Ideal S64x128 .f32) (v6 : FVec Ideal S128 .f32)
    (v12 : FVec Ideal S128x1 .f32) (v16 : FVec Ideal S1 .f32) (y : S4000x1.Idx) (p : Fin 4000) (hp : (y 0).val = p.val) :
    k0_pay1 (F := Ideal) v0 v3 v6 v12 v16 y = Cert.Mlp.score v3 v6 v12 v16 (fun k => v0 (ix2 p k)) := by
  obtain ⟨p', o, rfl⟩ : ∃ (p' : Fin 4000) (o : Fin 1), y = ix2 p' o := ⟨y 0, y 1, eq_ix2 y⟩
  obtain rfl : p' = p := Fin.ext hp
  exact stored_apply v0 v3 v6 v12 v16 p' o

end Cert.KernelIdeal.Block

end
-- ==== Proof.KernelValue.lean ====
/-
  The kernel, read one node at a time: after the run the score column holds every node's score of its row of the
  aggregated features, and the returned vector is that column with its unit axis dropped.

  The grid has 25 points; point `t` loads rows `4000 t … 4000 t + 3999` of the aggregated features and the four
  parameter arrays whole, and writes rows `4000 t … 4000 t + 3999` of the score column. A node's score depends on
  its own row only, so what point `t` writes is the restriction to its rows of one function of the whole arrays;
  the 25 row ranges cover the column (row `r` is written at point `r / 4000`).
-/
import proofs.«123524_j3229815407293_1_alg».proof.Proof.Gen.KernelIdeal.Frame
import proofs.«123524_j3229815407293_1_alg».proof.Proof.KernelBlock
import proofs.«123524_j3229815407293_1_alg».proof.Proof.Mlp
import Idealize.ShloMosaic.Lib.Pipeline.Value
import Idealize.ShloMosaic.Lib.StableHlo.Run
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Nodewise

open Cert.KernelIdeal Cert.KernelIdeal.Gen

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The aggregated features as the region finds them: what the host lines before it left in the array the first
    window stages. A node's score depends on it only through the node's own row. -/
@[irreducible] def aggr (c : Dev nD) : S100000x64.Idx → EReal := V m c (Pipeline.arrRef spec0 0)

theorem aggr_def (c : Dev nD) : aggr m c = V m c (Pipeline.arrRef spec0 0) := by
  unfold aggr
  rfl

/-- The feature window's block at point `t` is read off the aggregated features. -/
theorem feat_blk (c : Dev nD) (t : Fin cfg0.N) :
    iblk m c 0 t = ((cfg0.win 0).blk t).view.read (Elt Ideal) (aggr m c) := by
  unfold iblk
  rw [aggr_def]

/-- Every node's score, as a column, of the arrays the region finds: the aggregated features and the four parameter
    arrays. -/
abbrev colScores (c : Dev nD) : S100000x1.Idx → EReal :=
  Cert.Mlp.scoresCol (aggr m c) (V m c main_arg2) (V m c main_arg3) (V m c main_arg4) (V m c main_arg5)

/-- Where each window's block sits at point `t`: the features and the scores move down 4000 rows a point, the
    parameters stay whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- The first weight's block at any point is the whole array. -/
theorem w1_blk (c : Dev nD) (t : Fin cfg0.N) : (iblk m c 1 t : Vec Ideal S64x128 .f32) = V m c main_arg2 := by
  obtain ⟨e0, e1, e2, e3, e4, e5, e6, e7, e8, e9⟩ := idx_facts t
  funext y
  show V m c main_arg2 (((cfg0.win 1).blk t).view.emb y) = V m c main_arg2 y
  refine congrArg (V m c main_arg2) (funext fun a => Fin.ext ?_)
  match a with
  | ⟨0, _⟩ => show win0_1.index t (0 : Fin 2) * 64 + 1 * (y 0).val = (y 0).val; omega
  | ⟨1, _⟩ => show win0_1.index t (1 : Fin 2) * 128 + 1 * (y 1).val = (y 1).val; omega

/-- The first bias's block at any point is the whole array. -/
theorem b1_blk (c : Dev nD) (t : Fin cfg0.N) : (iblk m c 2 t : Vec Ideal S128 .f32) = V m c main_arg3 := by
  obtain ⟨e0, e1, e2, e3, e4, e5, e6, e7, e8, e9⟩ := idx_facts t
  funext y
  show V m c main_arg3 (((cfg0.win 2).blk t).view.emb y) = V m c main_arg3 y
  refine congrArg (V m c main_arg3) (funext fun a => Fin.ext ?_)
  match a with
  | ⟨0, _⟩ => show win0_2.index t (0 : Fin 1) * 128 + 1 * (y 0).val = (y 0).val; omega

/-- The second weight's block at any point is the whole array. -/
theorem w2_blk (c : Dev nD) (t : Fin cfg0.N) : (iblk m c 3 t : Vec Ideal S128x1 .f32) = V m c main_arg4 := by
  obtain ⟨e0, e1, e2, e3, e4, e5, e6, e7, e8, e9⟩ := idx_facts t
  funext y
  show V m c main_arg4 (((cfg0.win 3).blk t).view.emb y) = V m c main_arg4 y
  refine congrArg (V m c main_arg4) (funext fun a => Fin.ext ?_)
  match a with
  | ⟨0, _⟩ => show win0_3.index t (0 : Fin 2) * 128 + 1 * (y 0).val = (y 0).val; omega
  | ⟨1, _⟩ => show win0_3.index t (1 : Fin 2) * 1 + 1 * (y 1).val = (y 1).val; omega

/-- The second bias's block at any point is the whole array. -/
theorem b2_blk (c : Dev nD) (t : Fin cfg0.N) : (iblk m c 4 t : Vec Ideal S1 .f32) = V m c main_arg5 := by
  obtain ⟨e0, e1, e2, e3, e4, e5, e6, e7, e8, e9⟩ := idx_facts t
  funext y
  show V m c main_arg5 (((cfg0.win 4).blk t).view.emb y) = V m c main_arg5 y
  refine congrArg (V m c main_arg5) (funext fun a => Fin.ext ?_)
  match a with
  | ⟨0, _⟩ => show win0_4.index t (0 : Fin 1) * 1 + 1 * (y 0).val = (y 0).val; omega

/-- Row `p` of the feature block at point `t` is row `4000 t + p` of the array the block is read off. -/
theorem feat_row (A : S100000x64.Idx → EReal) (t : Fin cfg0.N) (p : Fin 4000) (r : Fin 100000) (hr : r.val = t.val * 4000 + p.val) :
    (fun k : Fin 64 => (View.read (Elt Ideal) ((View.whole main_v13).slice ((win0 0).rect t)) A : Vec Ideal S4000x64 .f32) (ix2 p k))
      = Cert.Mlp.row A r := by
  obtain ⟨e0, e1, e2, e3, e4, e5, e6, e7, e8, e9⟩ := idx_facts t
  funext k
  unfold Cert.Mlp.row
  show A (((cfg0.win 0).blk t).view.emb (ix2 p k)) = A (ix2 r k)
  refine congrArg A (funext fun a => Fin.ext ?_)
  match a with
  | ⟨0, _⟩ => show win0_0.index t (0 : Fin 2) * 4000 + 1 * p.val = r.val; omega
  | ⟨1, _⟩ => show win0_0.index t (1 : Fin 2) * 64 + 1 * k.val = k.val; omega

/-- Row `p` of the score block at point `t` is row `4000 t + p` of the column the block is read off. -/
theorem out_row (S : S100000x1.Idx → EReal) (t : Fin cfg0.N) (p : Fin 4000) (o : Fin 1) (r : Fin 100000) (hr : r.val = t.val * 4000 + p.val) :
    (View.read (Elt Ideal) ((View.whole main_v14).slice ((win0 5).rect t)) S : Vec Ideal S4000x1 .f32) (ix2 p o) = S (ix2 r (0 : Fin 1)) := by
  obtain ⟨e0, e1, e2, e3, e4, e5, e6, e7, e8, e9⟩ := idx_facts t
  show S (((cfg0.win 5).blk t).view.emb (ix2 p o)) = S (ix2 r (0 : Fin 1))
  refine congrArg S (funext fun a => Fin.ext ?_)
  have ho : o.val = 0 := by omega
  match a with
  | ⟨0, _⟩ => show win0_5.index t (0 : Fin 2) * 4000 + 1 * p.val = r.val; omega
  | ⟨1, _⟩ => show win0_5.index t (1 : Fin 2) * 1 + 1 * o.val = 0; omega

/-- WHAT POINT `t` WRITES BACK is its rows of the score column. -/
theorem flushed_eq (c : Dev nD) (t : Fin cfg0.N) :
    (dats m 0 c).flushed 5 t = ((cfg0.win 5).blk t).view.read (Elt Ideal) (colScores m c) := by
  have hN : cfg0.N = 25 := N_0
  have ht : t.val < 25 := by have := t.isLt; omega
  show (cfg0.win 5).cut (grid0.coords t) ((dats m 0 c).after 5 t) = _
  rw [after0_5, feat_blk m c t, w1_blk m c t, b1_blk m c t, w2_blk m c t, b2_blk m c t]
  unfold out0_5
  rw [View.canon_unit_zero hz2]
  simp only [View.ld_unit_zero (S := S4000x64) hz2, View.ld_unit_zero (S := S64x128) hz2, View.ld_unit_zero (S := S128) hz1,
    View.ld_unit_zero (S := S128x1) hz2, View.ld_unit_zero (S := S1) hz1]
  funext j
  obtain ⟨p, o, rfl⟩ : ∃ (p : Fin 4000) (o : Fin 1), j = ix2 p o := ⟨j 0, j 1, eq_ix2 j⟩
  have hr : t.val * 4000 + p.val < 100000 := by omega
  refine (Cert.KernelIdeal.Block.stored_at _ _ _ _ _ _ p rfl).trans ?_
  rw [feat_row (aggr m c) t p ⟨t.val * 4000 + p.val, hr⟩ rfl, out_row (colScores m c) t p o ⟨t.val * 4000 + p.val, hr⟩ rfl]
  exact (Cert.Mlp.scoresCol_apply _ _ _ _ _ _ ⟨t.val * 4000 + p.val, hr⟩ rfl).symm

/-- An index of the score column is in point `t`'s block iff each coordinate is in the block's range on its axis. -/
theorem mem_blk (t : Fin cfg0.N) (i : S100000x1.Idx) :
    i ∈ ((cfg0.win 5).blk t).view.set ↔ ∀ a : Fin 2, win0_5.index t a * S4000x1.size a ≤ (i a).val ∧ (i a).val < win0_5.index t a * S4000x1.size a + S4000x1.size a := by
  show i ∈ ((View.whole main_v14).slice (win0_5.rect t)).set ↔ _
  rw [View.set_slice_whole, Rect.mem_set_unit]
  exact Iff.rfl

/-- Every row of the score column is written at some point: row `r` at point `r / 4000`. -/
theorem cover (i : S100000x1.Idx) : ∃ t : Fin cfg0.N, (cfg0.win 5).flush t = true ∧ i ∈ ((cfg0.win 5).blk t).view.set := by
  have hi0 : (i 0).val < 100000 := (i 0).isLt
  have hi1 : (i 1).val < 1 := (i 1).isLt
  have hN : cfg0.N = 25 := N_0
  obtain ⟨t, ht⟩ : ∃ t : Fin cfg0.N, t.val = (i 0).val / 4000 := ⟨⟨(i 0).val / 4000, by rw [hN]; omega⟩, rfl⟩
  refine ⟨t, flush0_5 t, ?_⟩
  rw [mem_blk]
  obtain ⟨e0, e1, e2, e3, e4, e5, e6, e7, e8, e9⟩ := idx_facts t
  intro a
  match a with
  | ⟨0, _⟩ => show win0_5.index t (0 : Fin 2) * 4000 ≤ (i 0).val ∧ (i 0).val < win0_5.index t (0 : Fin 2) * 4000 + 4000; omega
  | ⟨1, _⟩ => show win0_5.index t (1 : Fin 2) * 1 ≤ (i 1).val ∧ (i 1).val < win0_5.index t (1 : Fin 2) * 1 + 1; omega

/-- THE SCORE COLUMN after the run holds every node's score. -/
theorem final (c : Dev nD) : (dats m 0 c).arrAt 5 cfg0.N = colScores m c :=
  (dats m 0 c).arrAt_eq_of_cover 5 (colScores m c) (fun t _ => flushed_eq m c t) cover

end Cert.KernelIdeal.Nodewise

end
-- ==== Proof.KernelRun.lean ====
/-
  The kernel's run, read: every weakly fair execution ends with the returned vector holding every node's score of
  its row of the aggregated features, and the six arguments as they were.

  After the region the one remaining host line drops the score column's unit axis. The column is the region's output
  array, which ends holding every node's score; the returned vector is a buffer the region does not touch, so it ends
  at what that line computes from the column.
-/
import proofs.«123524_j3229815407293_1_alg».proof.Proof.KernelValue

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Nodewise

open Cert.KernelIdeal Cert.KernelIdeal.Gen

variable (m : (ℓ : Loc nD τ sig) → Buf (Elt Ideal) ℓ) (ρ : Dev nD → PrngReg)

/-- Every node's score, as the vector the program returns. -/
abbrev vecScores (c : Dev nD) : S100000.Idx → EReal :=
  Cert.Mlp.scores (aggr m c) (V m c main_arg2) (V m c main_arg3) (V m c main_arg4) (V m c main_arg5)

/-- The returned vector after the host line that follows the region: the score column with its unit axis dropped. -/
theorem tail_eq (c : Dev nD) :
    Pipeline.afterTail₀ cfgs (dats m) 0 (V0 m) [hostOps1] c main_v15 = vecScores m c := by
  unfold Pipeline.afterTail₀
  show StableHlo.after hostOps1 _ (Proc.devRef .tc main_v15) = _
  after_results
  have hcol : Pipeline.withArrays (cfgs 0).spec c (V0 m c) (fun w => (dats m 0 c).arrAt w (cfgs 0).N) (Proc.devRef .tc main_v14)
      = colScores m c :=
    (Pipeline.withArrays_arr spec0 launch0.win.arr_inj c _ _ 5).trans (final m c)
  rw [hcol]
  funext i
  exact congrFun (Cert.Mlp.shapeCast_scoresCol (aggr m c) (V m c main_arg2) (V m c main_arg3) (V m c main_arg4) (V m c main_arg5)
    Facts₀.shapeCasts_S100000x1_S100000) i

/-- THE RUN, READ: the returned vector ends at every node's score, the six arguments as they were. The region's arrays
    end at what the blocks wrote (the parameters are inputs and keep their contents); the buffers the region does not
    stage — the first two arguments and the returned vector — end at what the host line after it leaves. -/
theorem run : θ_run defs (onTc (τ := τ) (main (F := Ideal))) ⟨m, fun _ => 0, ρ⟩ fun r => ∀ c : Dev nD,
      r.2.mem ((c.tc : Thread nD τ).loc main_v15) = vecScores m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v15 (Pipeline.mem_restRefs_of main_v15 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c)))⟩)
    (run_main m ρ)

end Cert.KernelIdeal.Nodewise

end
-- ==== Proof.RefValue.lean ====
/-
  The reference, read one node at a time: its result at node `r` is the node's score of row `r` of the
  aggregated features.

  The reference forms the whole hidden layer `max (A · W1 + b1) 0` and the whole output `H · W2 + b2`, then drops the
  unit axis. Read at an index, each matrix product is a sum over the contracted axis, each bias is broadcast along the
  rows, and the rectifier's zero is the zero word: together, the score of that node.
-/
import proofs.«123524_j3229815407293_1_alg».proof.Proof.Gen.ReferenceIdeal.Read
import proofs.«123524_j3229815407293_1_alg».proof.Proof.Mlp

noncomputable section

open scoped BigOperators
open Idealize.ShloMosaic Idealize.ShloMosaic.ValueIdx

namespace Cert.ReferenceIdeal.Nodewise

open Cert.ReferenceIdeal Cert.ReferenceIdeal.Read

/-- The reference's hidden layer at node `r`, unit `j`, is that node's hidden unit. -/
theorem hidden_apply (x0 : (⟨S100000x64, .f32⟩ : BufTy).Contents (Elt Ideal)) (x1 : (⟨S2x1280000, .i32⟩ : BufTy).Contents (Elt Ideal))
    (x2 : (⟨S64x128, .f32⟩ : BufTy).Contents (Elt Ideal)) (x3 : (⟨S128, .f32⟩ : BufTy).Contents (Elt Ideal))
    (r : Fin 100000) (j : Fin 128) :
    val_main_v18 (F := Ideal) x0 x1 x2 x3 (ix2 r j)
      = Cert.Mlp.hidden x2 x3 (Cert.Mlp.row (val_main_v13 (F := Ideal) x0 x1) r) j := by
  rw [val_main_v18_apply, val_main_v17_apply, val_main_v14_apply, val_main_v16_apply, val_main_v15_apply,
    val_main_call0_v0_apply, val_main_call0_cst_apply]
  have e1 : ∀ k : Fin 64, lidx_main_v14 (ix2 r j) k = ix2 r k := fun k => funext fun a => Fin.ext (by
    match a with
    | ⟨0, _⟩ => rfl
    | ⟨1, _⟩ => rfl)
  have e2 : ∀ k : Fin 64, ridx_main_v14 (ix2 r j) k = ix2 k j := fun k => funext fun a => Fin.ext (by
    match a with
    | ⟨0, _⟩ => rfl
    | ⟨1, _⟩ => rfl)
  have e3 : idx_main_v15 (idx_main_v16 (ix2 r j)) = ix1 j := funext fun a => Fin.ext (by
    match a with
    | ⟨0, _⟩ => rfl)
  simp only [e1, e2, e3]
  show max (_ + _) (Ideal.ofBits .f32 0x00000000#32) = _
  rw [Ideal.ofBits_zero_f32]
  rfl

/-- The reference's result at node `i` is the node's score. -/
theorem result_eq (x0 : (⟨S100000x64, .f32⟩ : BufTy).Contents (Elt Ideal)) (x1 : (⟨S2x1280000, .i32⟩ : BufTy).Contents (Elt Ideal))
    (x2 : (⟨S64x128, .f32⟩ : BufTy).Contents (Elt Ideal)) (x3 : (⟨S128, .f32⟩ : BufTy).Contents (Elt Ideal))
    (x4 : (⟨S128x1, .f32⟩ : BufTy).Contents (Elt Ideal)) (x5 : (⟨S1, .f32⟩ : BufTy).Contents (Elt Ideal)) :
    val_main_v23 (F := Ideal) x0 x1 x2 x3 x4 x5 = Cert.Mlp.scores (val_main_v13 (F := Ideal) x0 x1) x2 x3 x4 x5 := by
  funext i
  rw [val_main_v23_apply, val_main_v22_apply, val_main_v19_apply, val_main_v21_apply, val_main_v20_apply]
  have e0 : ∀ k : Fin 128, lidx_main_v19 (idx_main_v23 i) k = ix2 (⟨(i 0).val, (i 0).isLt⟩ : Fin 100000) k :=
    fun k => funext fun a => Fin.ext (by
      match a with
      | ⟨0, _⟩ => exact Nat.div_one _
      | ⟨1, _⟩ => rfl)
  have e1 : ∀ k : Fin 128, ridx_main_v19 (idx_main_v23 i) k = ix2 k (0 : Fin 1) := fun k => funext fun a => Fin.ext (by
    match a with
    | ⟨0, _⟩ => rfl
    | ⟨1, _⟩ => rfl)
  have e2 : idx_main_v20 (idx_main_v21 (idx_main_v23 i)) = ix1 (0 : Fin 1) := funext fun a => Fin.ext (by
    match a with
    | ⟨0, _⟩ => rfl)
  simp only [e0, e1, e2, hidden_apply]
  rfl

end Cert.ReferenceIdeal.Nodewise

end
-- ==== Proof.lean ====
/-
  A graph layer's node scores: messages gathered along the edges and summed into their target nodes, then a two-layer
  perceptron applied to every node's aggregated features. The kernel and the reference aggregate by the same host
  lines; they differ in how the perceptron is applied. The reference forms `max (A · W1 + b1) 0 · W2 + b2` on all
  100000 nodes at once. The kernel runs 25 grid points of 4000 nodes each, narrowing the matrix products' operands to
  bf16 and accumulating into zero. On exact values narrowing is the identity and a product accumulated into zero is the
  plain sum over the contracted axis, so both give each node the same function of its own row of aggregated features
  (`Cert.Mlp.score`): no law of arithmetic beyond that is needed, and the inputs' finiteness is never used.

  The pieces: the score of one node (Mlp); the reference read at a node (RefValue); one block of the kernel read at a
  row (KernelBlock, over a plain product read at an index, LibPlainMatmul); the blocks put together into the score
  column and the run with its last host line (KernelValue, KernelRun); here, that the two programs' aggregated
  features are one term of the arguments, and the five claims.
-/
import proofs.«123524_j3229815407293_1_alg».proof.Defs
import proofs.«123524_j3229815407293_1_alg».proof.Proof.Gen.Kernel
import proofs.«123524_j3229815407293_1_alg».proof.Proof.Gen.Kernel.Skeleton
import proofs.«123524_j3229815407293_1_alg».proof.Proof.Gen.Kernel.Launch
import proofs.«123524_j3229815407293_1_alg».proof.Proof.Gen.Kernel.Points
import proofs.«123524_j3229815407293_1_alg».proof.Proof.Gen.Kernel.Frame
import proofs.«123524_j3229815407293_1_alg».proof.Proof.Gen.KernelIdeal
import proofs.«123524_j3229815407293_1_alg».proof.Proof.Gen.KernelIdeal.Skeleton
import proofs.«123524_j3229815407293_1_alg».proof.Proof.Gen.KernelIdeal.Launch
import proofs.«123524_j3229815407293_1_alg».proof.Proof.Gen.KernelIdeal.Points
import proofs.«123524_j3229815407293_1_alg».proof.Proof.Gen.KernelIdeal.Frame
import proofs.«123524_j3229815407293_1_alg».proof.Proof.Gen.ReferenceIdeal
import proofs.«123524_j3229815407293_1_alg».proof.Proof.Gen.Pre_finite_inputs
import proofs.«123524_j3229815407293_1_alg».proof.Proof.Gen.ReferenceIdeal.Run
import proofs.«123524_j3229815407293_1_alg».proof.Proof.Gen.ReferenceIdeal.Read
import proofs.«123524_j3229815407293_1_alg».proof.Proof.KernelRun
import proofs.«123524_j3229815407293_1_alg».proof.Proof.RefValue
import Idealize.ShloMosaic.Adequacy
import Idealize.ShloMosaic.Init

noncomputable section

namespace Cert.Proof

open Idealize.ShloMosaic Idealize.ShloMosaic.TcCoe Idealize.SL.Sem

/-- The aggregated features the kernel's region finds are the reference's: the same slices of the edge list, the same
    wrap of negative source indices, the same gather of source rows and the same scatter-add into target rows, of the
    same two arguments. -/
theorem aggr_eq (m : (ℓ : Loc Cert.KernelIdeal.nD Cert.KernelIdeal.τ Cert.KernelIdeal.sig) → Buf (Elt Ideal) ℓ) (c : Dev Cert.KernelIdeal.nD) :
    Cert.KernelIdeal.Nodewise.aggr m c
      = Cert.ReferenceIdeal.Read.val_main_v13 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) := by
  rw [Cert.KernelIdeal.Nodewise.aggr_def]
  show StableHlo.after Cert.KernelIdeal.Gen.hostOps0 (fun b => m (c, b)) (Proc.devRef .tc Cert.KernelIdeal.main_v13) = _
  after_results
  rfl

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with every node's score of its row of the one array of aggregated features. -/
theorem algebraic : Cert.algebraic_KernelIdeal_ReferenceIdeal := by
  intro m ρ m' ρ' _ hagree
  refine ⟨fun c => Cert.KernelIdeal.Nodewise.vecScores m c, Cert.KernelIdeal.Nodewise.run m ρ, ?_⟩
  refine (θ_run Cert.ReferenceIdeal.defs _ _).mono (fun _ h c => ⟨(h c).1.trans ?_, (h c).2⟩) (Cert.ReferenceIdeal.Value.run (F := Ideal) m' ρ')
  refine (Cert.ReferenceIdeal.Read.val_main_v23_eq _ _ _ _ _ _).trans ?_
  rw [Cert.ReferenceIdeal.Nodewise.result_eq, (hagree c).1, (hagree c).2.1, (hagree c).2.2.1, (hagree c).2.2.2.1, (hagree c).2.2.2.2.1,
    (hagree c).2.2.2.2.2, ← aggr_eq m c]
  show Cert.Mlp.scores _ _ _ _ _ = Cert.Mlp.scores _ (Cert.KernelIdeal.Gen.V m c Cert.KernelIdeal.main_arg2) (Cert.KernelIdeal.Gen.V m c Cert.KernelIdeal.main_arg3)
    (Cert.KernelIdeal.Gen.V m c Cert.KernelIdeal.main_arg4) (Cert.KernelIdeal.Gen.V m c Cert.KernelIdeal.main_arg5)
  rw [Cert.KernelIdeal.Gen.V_main_arg2 m c, Cert.KernelIdeal.Gen.V_main_arg3 m c, Cert.KernelIdeal.Gen.V_main_arg4 m c, Cert.KernelIdeal.Gen.V_main_arg5 m c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
